-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S20000x128 .f32) (main_arg1 : IVec S2x640000 32) (main_arg2 : FVec F S128x128 .f32) (main_arg3 : FVec F S128 .f32) (main_arg4 : FVec F S128x128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S20000 : Shape := ⟨1, ![20000]⟩
abbrev S20000x1 : Shape := ⟨2, ![20000, 1]⟩
abbrev S1x128 : Shape := ⟨2, ![1, 128]⟩
abbrev S2000x128 : Shape := ⟨2, ![2000, 128]⟩

abbrev nBuf : Space → Nat
  | .hbm => 38
  | .vmem => 9
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S20000x128, .f32⟩
  | .hbm, ⟨20, _⟩ => ⟨S640000x1, .i32⟩
  | .hbm, ⟨21, _⟩ => ⟨S20000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S20000, .f32⟩
  | .hbm, ⟨26, _⟩ => ⟨S640000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000x1, .f32⟩
  | .hbm, ⟨32, _⟩ => ⟨S20000x128, .f32⟩
  | .hbm, ⟨33, _⟩ => ⟨S20000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .f32 = 32 ∨ (Rect.block (s := S20000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S20000x128.size a
  hwx0_5 : ∀ i : grid0.Coords, EltTy.bits .f32 = 32 ∨ (Rect.block (s := S20000x128) S2000x128.size (cc0_transform_5 i) (hinb0_5 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S20000 : Shape := ⟨1, ![20000]⟩
abbrev S20000x1 : Shape := ⟨2, ![20000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S20000x128, .f32⟩
  | .hbm, ⟨20, _⟩ => ⟨S640000x1, .i32⟩
  | .hbm, ⟨21, _⟩ => ⟨S20000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S20000, .f32⟩
  | .hbm, ⟨26, _⟩ => ⟨S640000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000x1, .f32⟩
  | .hbm, ⟨32, _⟩ => ⟨S20000x128, .f32⟩
  | .hbm, ⟨33, _⟩ => ⟨S20000x128, .f32⟩
  | .hbm, ⟨34, _⟩ => ⟨S128x128, .f32⟩
  | .hbm, ⟨35, _⟩ => ⟨S20000x128, .f32⟩
  | .hbm, ⟨36, _⟩ => ⟨S1x128, .f32⟩
  | .hbm, ⟨37, _⟩ => ⟨S20000x128, .f32⟩
  | .hbm, ⟨38, _⟩ => ⟨S20000x128, .f32⟩
  | .hbm, ⟨39, _⟩ => ⟨S128x128, .f32⟩
  | .hbm, ⟨40, _⟩ => ⟨S20000x128, .f32⟩
  | .hbm, ⟨41, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  dot_S20000x128_S128x128_S20000x128_1_0_0_1_n_n_wf : DotDims.WF S20000x128 S128x128 S20000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.LinearTail.lean ====
/-
  The dense tail of a mean-aggregation graph convolution, as ONE function of its five arrays.

  For a node `r` and an output feature `j`,

      out[r, j] = (Σₖ agg[r, k] · W_l[j, k]  +  Σₖ x[r, k] · W_r[j, k])  +  b[j],

  the sums over the 128 input features: the aggregated neighbourhood `agg` through the left weights, the node's own
  features `x` through the right weights (both weights used transposed, hence `W[j, k]`), and the bias. Everything is
  an extended real; only commutativity and associativity of `+` are ever used on it, which hold at the infinities
  too, so nothing here asks an entry to be finite.
-/
import Idealize.ShloMosaic.PureOps.Ideal
import Idealize.ShloMosaic.Lib.ValueIdx

noncomputable section

namespace Cert.LinearTail

open Idealize.ShloMosaic Idealize.ShloMosaic.ValueIdx

/-- The tail's result at every (node, feature): left product plus right product, plus the bias. -/
def out (agg x : (⟨2, ![20000, 128]⟩ : Shape).Idx → EReal) (wl wr : (⟨2, ![128, 128]⟩ : Shape).Idx → EReal)
    (b : (⟨1, ![128]⟩ : Shape).Idx → EReal) : (⟨2, ![20000, 128]⟩ : Shape).Idx → EReal :=
  fun i => ((∑ k : Fin 128, agg (ix2 (i 0) k) * wl (ix2 (i 1) k)) + ∑ k : Fin 128, x (ix2 (i 0) k) * wr (ix2 (i 1) k))
    + b (ix1 (i 1))

/-- Adding the bias before the second product or after it is the same sum: `(s + b) + s' = (s + s') + b` in any
    commutative additive monoid, the extended reals among them. -/
theorem bias_last (s b s' : EReal) : (s + b) + s' = (s + s') + b := add_right_comm s b s'

end Cert.LinearTail

end
-- ==== Proof.ReferenceTail.lean ====
/-
  The reference's result is the linear tail of its own aggregation.

  The reference computes `(agg · W_lᵀ + b) + x · W_rᵀ` with `agg` the mean of each node's incoming neighbours. Read at
  an index (node `r`, feature `j`): each product is a sum over the 128 input features, the transposed weight read at
  `[j, k]` of the weight itself, the bias broadcast along the nodes. That is `LinearTail.out` up to where the bias is
  added, and `(s + b) + s' = (s + s') + b` closes it. The aggregation `agg` is carried whole and never opened.
-/
import proofs.«179985_j31284541784246_1_alg».proof.Proof.Gen.ReferenceIdeal.Read
import proofs.«179985_j31284541784246_1_alg».proof.Proof.LinearTail

noncomputable section

namespace Cert.ReferenceIdeal.Tail

open Cert.ReferenceIdeal Cert.ReferenceIdeal.Read Idealize.ShloMosaic Idealize.ShloMosaic.ValueIdx

/-- The left operand of either product at (output index `i`, feature `k`) is read at `[r, k]`. -/
theorem row_idx (i : S20000x128.Idx) (k : Fin 128) : lidx_main_v24 i k = ix2 (i 0) k :=
  funext fun a => Fin.ext (by match a with | ⟨0, _⟩ => rfl | ⟨1, _⟩ => rfl)

/-- The same for the second product (the two index maps are one function). -/
theorem row_idx' (i : S20000x128.Idx) (k : Fin 128) : lidx_main_v29 i k = ix2 (i 0) k :=
  funext fun a => Fin.ext (by match a with | ⟨0, _⟩ => rfl | ⟨1, _⟩ => rfl)

/-- The transposed left weight at `[k, j]` is the weight at `[j, k]`. -/
theorem wl_idx (i : S20000x128.Idx) (k : Fin 128) : idx_main_v23 (ridx_main_v24 i k) = ix2 (i 1) k :=
  funext fun a => Fin.ext (by match a with | ⟨0, _⟩ => rfl | ⟨1, _⟩ => rfl)

/-- The transposed right weight at `[k, j]` is the weight at `[j, k]`. -/
theorem wr_idx (i : S20000x128.Idx) (k : Fin 128) : idx_main_v28 (ridx_main_v29 i k) = ix2 (i 1) k :=
  funext fun a => Fin.ext (by match a with | ⟨0, _⟩ => rfl | ⟨1, _⟩ => rfl)

/-- The bias, broadcast to a row and then along the nodes, read at `[r, j]` is the bias at `j`. -/
theorem bias_idx (i : S20000x128.Idx) : idx_main_v25 (idx_main_v26 i) = ix1 (i 1) :=
  funext fun a => Fin.ext (by match a with | ⟨0, _⟩ => rfl)

/-- The reference's last stage is the linear tail of its aggregation stage, the features, the two weights and the bias. -/
theorem result_eq (x0 : (⟨S20000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4 = Cert.LinearTail.out (val_main_v22 (F := Ideal) x0 x1) x0 x2 x4 x3 := by
  funext i
  rw [val_main_v30_apply, val_main_v27_apply, val_main_v24_apply, val_main_v29_apply, val_main_v26_apply, val_main_v25_apply]
  simp only [val_main_v23_apply, val_main_v28_apply, row_idx, row_idx', wl_idx, wr_idx, bias_idx, Ideal.addf_def]
  exact Cert.LinearTail.bias_last _ _ _

end Cert.ReferenceIdeal.Tail

end
-- ==== Proof.BodyValue.lean ====
/-
  What the kernel body stores, read at an index of its 2000 × 128 block.

  The body loads a block of aggregated rows `a`, the same rows of the features `x`, the two (already transposed)
  weights `u`, `v` and the bias row `β`, and stores `(a · u + x · v) + β`. At the exact values a change of float
  format is the identity and a matrix product into a zero accumulator is the plain sum over the contracted axis, so at
  row `p`, column `q`:

      stored[p, q] = (Σₖ a[p, k] · u[k, q]  +  Σₖ x[p, k] · v[k, q])  +  β[0, q].
-/
import proofs.«179985_j31284541784246_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices, axis by axis -/

theorem lhs_row (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block's product with a weight, accumulated into zero, at `[p, q]`: the sum over the 128 contracted features of
    the block's row `p` against the weight's column `q`. -/
theorem product_apply (a : FVec Ideal S2000x128 .bf16) (w : FVec Ideal S128x128 .bf16) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row broadcast down the block's 2000 rows, at `[p, q]`, is the row's entry `q`. -/
theorem bias_row_apply (β : FVec Ideal S1x128 .f32) (p : Fin 2000) (q : Fin 128) :
    broadcastTo S2000x128 β broadcasts_S1x128_S2000x128 (ix2 p q) = β (ix2 0 q) :=
  broadcastTo_apply β broadcasts_S1x128_S2000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)

/-- The stored value at `[p, q]`: the two products' sums, then the bias. -/
theorem stored_apply (a x : Vec Ideal S2000x128 .f32) (u v : Vec Ideal S128x128 .f32) (β : Vec Ideal S1x128 .f32)
    (p : Fin 2000) (q : Fin 128) :
    k0_pay1 (F := Ideal) a x u v β (ix2 p q)
      = ((∑ k : Fin 128, a (ix2 p k) * u (ix2 k q)) + ∑ k : Fin 128, x (ix2 p k) * v (ix2 k q)) + β (ix2 0 q) := by
  unfold k0_pay1
  rw [addf_apply, addf_apply, product_apply, product_apply, bias_row_apply]
  simp only [truncf_apply, shapeCast_self]

end Cert.KernelIdeal.Body

end
-- ==== Proof.KernelArray.lean ====
/-
  The kernel's output array after the run is the linear tail of the arrays the region finds.

  The grid's ten points each write one block of 2000 node rows. Point `t` stages rows `2000·t … 2000·t + 1999` of the
  aggregation and of the features, the whole of both transposed weights and the bias row, and writes back
  `(a · u + x · v) + β` for those rows. The transposed weight at `[k, j]` is the weight at `[j, k]`, the bias row at
  `[0, j]` is the bias at `j`, and the row blocks tile the 20000 nodes: the node `r` lies in block `r / 2000`. So the
  array ends as `LinearTail.out` of the aggregation array, the features, the two weights and the bias.
-/
import proofs.«179985_j31284541784246_1_alg».proof.Proof.Gen.KernelIdeal.Value
import proofs.«179985_j31284541784246_1_alg».proof.Proof.BodyValue
import proofs.«179985_j31284541784246_1_alg».proof.Proof.LinearTail
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the host wrote before the region -/

/-- The left weight's transpose, as the region finds it, at `[k, j]`: the weight at `[j, k]`. -/
theorem wl_entry (c : Dev nD) (k j : Fin 128) :
    (V m c main_v23 : S128x128.Idx → EReal) (ix2 k j) = (m ((c : Thread nD τ).loc main_arg2) : S128x128.Idx → EReal) (ix2 j k) := by
  have e : (V m c main_v23 : S128x128.Idx → EReal)
      = transpose S128x128 [1, 0] (m ((c : Thread nD τ).loc main_arg2)) transposes_S128x128_S128x128_1_0 := by
    dsimp only [Gen.V, Gen.hostOps0]; after_results <;> rfl
  rw [e]
  exact transpose_apply [1, 0] _ transposes_S128x128_S128x128_1_0 (ix2 k j) (ix2 j k) (fun b => match b with
    | ⟨0, _⟩ => rfl
    | ⟨1, _⟩ => rfl)

/-- The right weight's transpose at `[k, j]`: the weight at `[j, k]`. -/
theorem wr_entry (c : Dev nD) (k j : Fin 128) :
    (V m c main_v24 : S128x128.Idx → EReal) (ix2 k j) = (m ((c : Thread nD τ).loc main_arg4) : S128x128.Idx → EReal) (ix2 j k) := by
  have e : (V m c main_v24 : S128x128.Idx → EReal)
      = transpose S128x128 [1, 0] (m ((c : Thread nD τ).loc main_arg4)) transposes_S128x128_S128x128_1_0 := by
    dsimp only [Gen.V, Gen.hostOps0]; after_results <;> rfl
  rw [e]
  exact transpose_apply [1, 0] _ transposes_S128x128_S128x128_1_0 (ix2 k j) (ix2 j k) (fun b => match b with
    | ⟨0, _⟩ => rfl
    | ⟨1, _⟩ => rfl)

/-- The bias reshaped to one row, at `[0, j]`: the bias at `j`. -/
theorem bias_entry (c : Dev nD) (j : Fin 128) :
    (V m c main_v25 : S1x128.Idx → EReal) (ix2 0 j) = (m ((c : Thread nD τ).loc main_arg3) : S128.Idx → EReal) (ix1 j) := by
  have e : (V m c main_v25 : S1x128.Idx → EReal)
      = shapeCast S1x128 (m ((c : Thread nD τ).loc main_arg3)) shapeCasts_S128_S1x128 := by
    dsimp only [Gen.V, Gen.hostOps0]; after_results <;> rfl
  rw [e]
  refine shapeCast_apply _ shapeCasts_S128_S1x128 (ix2 0 j) (ix1 j) ?_
  rw [Shape.rowMajor_val_one, Shape.rowMajor_val_two]
  show j.val = 0 * 128 + j.val
  omega

/-! ## One grid point -/

theorem origin : (![0, 0] : Fin 2 → Nat) = fun _ => 0 := funext fun a => by fin_cases a <;> rfl

/-- The printed index maps over the ten points: the row blocks of the aggregation, of the features and of the output
    move together, block `t` at point `t`; the weights and the bias row are always the block at the origin. -/
theorem idx_facts : ∀ t : Fin cfg0.N,
      win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The array the run leaves: the linear tail of the aggregation and the features as the region finds them, and of the
    two weights and the bias as launched. -/
abbrev tail (c : Dev nD) : S20000x128.Idx → EReal :=
  Cert.LinearTail.out (V m c main_v22) (V m c main_arg0) (m ((c : Thread nD τ).loc main_arg2))
    (m ((c : Thread nD τ).loc main_arg4)) (m ((c : Thread nD τ).loc main_arg3))

/-- One stored entry against one entry of the tail, over plain blocks and arrays: if row `p` of the two row blocks is
    node `r`'s row of the two arrays, the staged weights are the transposes, and the staged row is the bias, then the
    body's stored `[p, q]` is the tail at `[r, q]`. -/
theorem point_eq (A X : S20000x128.Idx → EReal) (Wl Wr : S128x128.Idx → EReal) (B : S128.Idx → EReal)
    (a x : Vec Ideal S2000x128 .f32) (u v : Vec Ideal S128x128 .f32) (β : Vec Ideal S1x128 .f32)
    (p : Fin 2000) (q : Fin 128) (r : Fin 20000)
    (ha : ∀ k : Fin 128, a (ix2 p k) = A (ix2 r k)) (hx : ∀ k : Fin 128, x (ix2 p k) = X (ix2 r k))
    (hu : ∀ k : Fin 128, u (ix2 k q) = Wl (ix2 q k)) (hv : ∀ k : Fin 128, v (ix2 k q) = Wr (ix2 q k))
    (hβ : β (ix2 0 q) = B (ix1 q)) :
    k0_pay1 (F := Ideal) a x u v β (ix2 p q) = Cert.LinearTail.out A X Wl Wr B (ix2 r q) := by
  rw [Body.stored_apply]
  simp only [ha, hx, hu, hv, hβ]
  rfl

/-- WHAT POINT `t` WRITES BACK is block `t` of the tail. -/
theorem flushed_eq (c : Dev nD) (t : Fin cfg0.N) :
    (dats m 0 c).flushed 5 t = ((cfg0.win 5).blk t).view.read (Elt Ideal) (tail m c) := by
  rw [Value.flushed5]
  unfold out0_5
  rw [View.canon_unit_zero origin]
  simp only [View.ld_unit_zero (S := S2000x128) origin, View.ld_unit_zero (S := S128x128) origin, View.ld_unit_zero (S := S1x128) origin]
  obtain ⟨e50, e51, e00, e01, e10, e11, e20, e21, e30, e31, e40, e41⟩ := idx_facts t
  have ht : t.val < 10 := t.isLt
  funext j
  obtain ⟨p, q, rfl⟩ : ∃ (p : Fin 2000) (q : Fin 128), j = ix2 p q := ⟨j 0, j 1, eq_ix2 j⟩
  have hr : t.val * 2000 + p.val < 20000 := by have := p.isLt; omega
  show k0_pay1 (F := Ideal) (iblk m c 0 t) (iblk m c 1 t) (iblk m c 2 t) (iblk m c 3 t) (iblk m c 4 t) (ix2 p q)
      = tail m c (((cfg0.win 5).blk t).view.emb (ix2 p q))
  -- the output block's entry [p, q] is the array's entry [2000·t + p, q]
  have hout : ((cfg0.win 5).blk t).view.emb (ix2 p q) = ix2 (⟨t.val * 2000 + p.val, hr⟩ : Fin 20000) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  rw [hout]
  refine point_eq (V m c main_v22) (V m c main_arg0) (m ((c : Thread nD τ).loc main_arg2)) (m ((c : Thread nD τ).loc main_arg4))
    (m ((c : Thread nD τ).loc main_arg3)) (iblk m c 0 t) (iblk m c 1 t) (iblk m c 2 t) (iblk m c 3 t) (iblk m c 4 t)
    p q ⟨t.val * 2000 + p.val, hr⟩ ?_ ?_ ?_ ?_ ?_
  · -- row p of the aggregation's block is node 2000·t + p's row
    intro k
    show V m c main_v22 (((cfg0.win 0).blk t).view.emb (ix2 p k)) = V m c main_v22 (ix2 (⟨t.val * 2000 + p.val, hr⟩ : Fin 20000) k)
    refine congrArg (V m c main_v22) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · -- and of the features' block
    intro k
    show V m c main_arg0 (((cfg0.win 1).blk t).view.emb (ix2 p k)) = V m c main_arg0 (ix2 (⟨t.val * 2000 + p.val, hr⟩ : Fin 20000) k)
    refine congrArg (V m c main_arg0) (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  · -- the staged left weight is the whole transposed weight
    intro k
    show V m c main_v23 (((cfg0.win 2).blk t).view.emb (ix2 k q)) = _
    have hw : ((cfg0.win 2).blk t).view.emb (ix2 k q) = ix2 k q := by
      funext a; apply Fin.ext
      match a with
      | ⟨0, _⟩ => show win0_2.index t (0 : Fin 2) * 128 + 1 * k.val = k.val; omega
      | ⟨1, _⟩ => show win0_2.index t (1 : Fin 2) * 128 + 1 * q.val = q.val; omega
    rw [hw]
    exact wl_entry m c k q
  · -- the staged right weight likewise
    intro k
    show V m c main_v24 (((cfg0.win 3).blk t).view.emb (ix2 k q)) = _
    have hw : ((cfg0.win 3).blk t).view.emb (ix2 k q) = ix2 k q := by
      funext a; apply Fin.ext
      match a with
      | ⟨0, _⟩ => show win0_3.index t (0 : Fin 2) * 128 + 1 * k.val = k.val; omega
      | ⟨1, _⟩ => show win0_3.index t (1 : Fin 2) * 128 + 1 * q.val = q.val; omega
    rw [hw]
    exact wr_entry m c k q
  · -- the staged row is the bias row
    show V m c main_v25 (((cfg0.win 4).blk t).view.emb (ix2 0 q)) = _
    have hb : ((cfg0.win 4).blk t).view.emb (ix2 (0 : Fin 1) q) = ix2 (0 : Fin 1) q := by
      funext a; apply Fin.ext
      match a with
      | ⟨0, _⟩ => show win0_4.index t (0 : Fin 2) * 1 + 1 * 0 = 0; omega
      | ⟨1, _⟩ => show win0_4.index t (1 : Fin 2) * 128 + 1 * q.val = q.val; omega
    rw [hb]
    exact bias_entry m c q

end Cert.KernelIdeal.Tail

end
-- ==== Proof.KernelRun.lean ====
/-
  The ten row blocks tile the 20000 nodes, so the kernel's run leaves the whole output array at the linear tail.

  An index `[r, j]` of the output lies in point `t`'s block exactly when `2000·t ≤ r < 2000·t + 2000` (the column range
  is the whole axis), so it lies in the block of the point `r / 2000`, and every point writes its block back. Each
  block written is the tail's block (`flushed_eq`), hence the array is the tail.
-/
import proofs.«179985_j31284541784246_1_alg».proof.Proof.KernelArray

set_option maxRecDepth 16384

noncomputable section

namespace Cert.KernelIdeal.Tail

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- An index of the array is in point `t`'s block iff each coordinate is in the block's range on its axis. -/
theorem mem_blk (t : Fin cfg0.N) (i : S20000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- Every index of the output is in some writing point's block: node `r` in the block of point `r / 2000`. -/
theorem cover (i : S20000x128.Idx) :
    ∃ t : Fin cfg0.N, (cfg0.win 5).flush t = true ∧ i ∈ ((cfg0.win 5).blk t).view.set := by
  have hi0 : (i 0).val < 20000 := (i 0).isLt
  have hi1 : (i 1).val < 128 := (i 1).isLt
  have hlt : (i 0).val / 2000 < 10 := by omega
  obtain ⟨e50, e51, -⟩ := idx_facts (⟨(i 0).val / 2000, hlt⟩ : Fin cfg0.N)
  have e50' : win0_5.index (⟨(i 0).val / 2000, hlt⟩ : Fin cfg0.N) (0 : Fin 2) = (i 0).val / 2000 := e50
  refine ⟨⟨(i 0).val / 2000, hlt⟩, flush0_5 _, ?_⟩
  rw [mem_blk]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    omega
  | ⟨1, _⟩ =>
    show win0_5.index ⟨(i 0).val / 2000, hlt⟩ (1 : Fin 2) * 128 ≤ (i 1).val ∧ (i 1).val < win0_5.index ⟨(i 0).val / 2000, hlt⟩ (1 : Fin 2) * 128 + 128
    omega

/-- THE ARRAY after the run is the tail. -/
theorem final (c : Dev nD) : (dats m 0 c).arrAt 5 cfg0.N = tail m c :=
  (dats m 0 c).arrAt_eq_of_cover 5 (tail m c) (fun t _ => flushed_eq m c t) cover

/-- The kernel's run: the result array at the tail, the arguments unchanged. -/
theorem run : θ_run defs (onTc (τ := τ) (main (F := Ideal))) ⟨m, fun _ => 0, ρ⟩ fun r => ∀ c : Dev nD,
      r.2.mem ((c : Thread nD τ).loc main_v26) = tail m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Tail

end
-- ==== Proof.Aggregation.lean ====
/-
  Both programs aggregate the same way.

  Before its region the kernel's host code computes the mean aggregation with exactly the reference's operations: the
  source and target rows of the edge list, negative indices wrapped by the node count, the gather of the source
  features, the two scatter-additions (feature sums and edge counts per target), the count floored at one, and the
  quotient. So the aggregation array the region finds is the reference's aggregation stage of the launched features
  and edge list: one term, compared operation by operation and never evaluated.
-/
import proofs.«179985_j31284541784246_1_alg».proof.Proof.Gen.KernelIdeal.Frame
import proofs.«179985_j31284541784246_1_alg».proof.Proof.Gen.ReferenceIdeal.Read
import Idealize.ShloMosaic.Lib.StableHlo.Run

noncomputable section

namespace Cert.Aggregation

open Idealize.ShloMosaic Idealize.ShloMosaic.TcCoe Idealize.SL.Sem Idealize.ShloMosaic.StableHlo

set_option maxHeartbeats 2000000 in
/-- The aggregation array as the kernel's region finds it is the reference's aggregation stage of the kernel's launched
    features and edge list. (The source rows feed three operations and the target rows two; each shared operand is
    visited once.) -/
theorem kernel_agg_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v22 : Cert.KernelIdeal.S20000x128.Idx → EReal)
      = Cert.ReferenceIdeal.Read.val_main_v22 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results_simp <;> rfl

end Cert.Aggregation

end
-- ==== Proof.lean ====
/-
  Mean-aggregation graph convolution, dense tail in a tiled kernel, against its plain reference.

  Both programs first aggregate: every node's incoming neighbour features are summed and divided by the number of
  incoming edges (floored at one). Then the reference returns `(agg · W_lᵀ + b) + x · W_rᵀ`, while the kernel's ten grid
  points each take 2000 node rows and store `(agg · W_lᵀ + x · W_rᵀ) + b` for them, the products on operands cast to a
  narrower float format and accumulated into zero. Over the extended reals the cast is the identity, a product into zero
  is the plain sum over the 128 contracted features, the aggregation is the same term in both programs, and the two
  results differ only in where the bias is added: `(s + b) + s' = (s + s') + b`, true of any commutative sum, so no
  entry needs to be finite.

  `LinearTail` states the common result; `ReferenceTail` reads the reference's last stage as it; `BodyValue` reads what
  one grid point stores, `KernelArray` and `KernelRun` carry that over the ten row blocks to the whole output array;
  `Aggregation` identifies the two aggregations. The frames of the two kernel programs are the generated ones, the
  reference's is its generated run with the result dropped, and there is no idealization rewrite to preserve.
-/
import proofs.«179985_j31284541784246_1_alg».proof.Defs
import proofs.«179985_j31284541784246_1_alg».proof.Proof.Gen.Kernel
import proofs.«179985_j31284541784246_1_alg».proof.Proof.Gen.Kernel.Skeleton
import proofs.«179985_j31284541784246_1_alg».proof.Proof.Gen.Kernel.Launch
import proofs.«179985_j31284541784246_1_alg».proof.Proof.Gen.Kernel.Points
import proofs.«179985_j31284541784246_1_alg».proof.Proof.Gen.Kernel.Frame
import proofs.«179985_j31284541784246_1_alg».proof.Proof.Gen.KernelIdeal
import proofs.«179985_j31284541784246_1_alg».proof.Proof.Gen.KernelIdeal.Skeleton
import proofs.«179985_j31284541784246_1_alg».proof.Proof.Gen.KernelIdeal.Launch
import proofs.«179985_j31284541784246_1_alg».proof.Proof.Gen.KernelIdeal.Points
import proofs.«179985_j31284541784246_1_alg».proof.Proof.Gen.KernelIdeal.Frame
import proofs.«179985_j31284541784246_1_alg».proof.Proof.Gen.ReferenceIdeal
import proofs.«179985_j31284541784246_1_alg».proof.Proof.Gen.Pre_finite_inputs
import proofs.«179985_j31284541784246_1_alg».proof.Proof.Gen.KernelIdeal.Value
import proofs.«179985_j31284541784246_1_alg».proof.Proof.Gen.ReferenceIdeal.Run
import proofs.«179985_j31284541784246_1_alg».proof.Proof.Gen.ReferenceIdeal.Read
import Idealize.ShloMosaic.Adequacy
import Idealize.ShloMosaic.Init

import proofs.«179985_j31284541784246_1_alg».proof.Proof.LinearTail
import proofs.«179985_j31284541784246_1_alg».proof.Proof.ReferenceTail
import proofs.«179985_j31284541784246_1_alg».proof.Proof.BodyValue
import proofs.«179985_j31284541784246_1_alg».proof.Proof.KernelArray
import proofs.«179985_j31284541784246_1_alg».proof.Proof.KernelRun
import proofs.«179985_j31284541784246_1_alg».proof.Proof.Aggregation

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the five arguments both programs end at the linear tail of the common aggregation: the
    kernel by its ten row blocks, the reference by reading its last stage, the bias added last or in the middle. -/
theorem algebraic : Cert.algebraic_KernelIdeal_ReferenceIdeal := by
  intro m ρ m' ρ' _ hagree
  refine ⟨fun c => Cert.KernelIdeal.Tail.tail m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.Tail.result_eq,
    (hagree c).1, (hagree c).2.1, (hagree c).2.2.1, (hagree c).2.2.2.1, (hagree c).2.2.2.2]
  show _ = Cert.LinearTail.out (Cert.KernelIdeal.Gen.V m c Cert.KernelIdeal.main_v22) (Cert.KernelIdeal.Gen.V m c Cert.KernelIdeal.main_arg0) _ _ _
  rw [Cert.Aggregation.kernel_agg_eq, Cert.KernelIdeal.Gen.V_main_arg0]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
